-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S1024x1024 .f32) (main_arg13 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_v63 main_v67

def fn_part2 {F : FTy → Type} [FloatOps F] (main_arg7 : FVec F S8192x1024 .f32) (main_arg8 : FVec F S8192x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S8192x1024 .f32) (main_arg5 : FVec F S8192x1024 .f32) (main_arg6 : FVec F S8192x1024 .f32) (main_arg7 : FVec F S8192x1024 .f32) (main_arg8 : FVec F S8192x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x1024 .f32) (main_arg7 : FVec F S8192x1024 .f32) (main_arg8 : FVec F S8192x1024 .f32) (main_arg9 : FVec F S1024x1024 .f32) (main_arg10 : FVec F S1024x1024 .f32) (main_arg11 : FVec F S1024x1024 .f32) (main_arg12 : FVec F S1024x1024 .f32) (main_arg13 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x1024 : Shape := ⟨2, ![8192, 1024]⟩
abbrev S1024x1024 : Shape := ⟨2, ![1024, 1024]⟩
abbrev S4x8192x1024 : Shape := ⟨3, ![4, 8192, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S4x8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S4x128x1024, .f32⟩
  | .local _ .vmem, ⟨22, _⟩ => ⟨S4x128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S1024x1024_S1024x1024_1_0 : S1024x1024.Transposes [1, 0] S1024x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  inb_S4x128x1024_S1x128x1024_0_0_0 : ∀ a, (![0, 0, 0] : Fin 3 → Nat) a + S1x128x1024.size a ≤ S4x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S4x128x1024_S1x128x1024_1_0_0 : ∀ a, (![1, 0, 0] : Fin 3 → Nat) a + S1x128x1024.size a ≤ S4x128x1024.size a
  inb_S4x128x1024_S1x128x1024_2_0_0 : ∀ a, (![2, 0, 0] : Fin 3 → Nat) a + S1x128x1024.size a ≤ S4x128x1024.size a
  inb_S4x128x1024_S1x128x1024_3_0_0 : ∀ a, (![3, 0, 0] : Fin 3 → Nat) a + S1x128x1024.size a ≤ S4x128x1024.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x1024.size a
  hwx0_3 : ∀ i : grid0.Coords, EltTy.bits .f32 = 32 ∨ (Rect.block (s := S8192x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S8192x1024.size a
  hwx0_4 : ∀ i : grid0.Coords, EltTy.bits .f32 = 32 ∨ (Rect.block (s := S8192x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .f32 = 32 ∨ (Rect.block (s := S1024x1024) S1024x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .f32 = 32 ∨ (Rect.block (s := S1024x1024) S1024x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .f32 = 32 ∨ (Rect.block (s := S1024x1024) S1024x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x128x1024.size a ≤ S4x8192x1024.size a
  hwx0_13 : ∀ i : grid0.Coords, EltTy.bits .f32 = 32 ∨ (Rect.block (s := S4x8192x1024) S4x128x1024.size (cc0_transform_13 i) (hinb0_13 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S4x128x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S1x8192x1024 : Shape := ⟨3, ![1, 8192, 1024]⟩
abbrev S4x8192x1024 : Shape := ⟨3, ![4, 8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .i1⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .i1⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .i1⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .i1⟩
  | .hbm, ⟨61, _⟩ => ⟨S8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S4x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S4x8192x1024_d0 : Shape.Concatenates [S1x8192x1024, S1x8192x1024, S1x8192x1024, S1x8192x1024] S4x8192x1024 0
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibOverlay.lean ====
/-
  Writing one rectangle of a buffer: the contents a single store leaves are the old contents with the
  rectangle's part replaced by the payload (`Rect.overlay`), and what that reads at an index of a
  unit-stride rectangle: inside the rectangle the payload at the index less the offsets, outside the
  old contents.
-/
import Idealize.ShloMosaic.Lib.Pipeline.FrameBody
import Idealize.ShloMosaic.Lib.Pipeline.Value

noncomputable section

namespace Idealize.ShloMosaic

open Idealize.SL.Sem

namespace View

variable {sig : RefSig} {κ : Kind} {sp : Space} {s : Shape} {e : EltTy} {Val : EltTy → Type}

/-- One store through `r` over contents `f` reads back as `f`'s reading with `r`'s part replaced by the payload. -/
theorem read_writes_single (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [read_writes_cons_emb, Rect.overlay_emb]
  · have hy' : y ∉ Finset.univ.map r.emb := by rwa [Rect.map_emb_univ]
    rw [writes_cons, read_slice_write_of_not_mem r _ _ _ hy', writes_nil, Rect.overlay_of_not_mem _ _ _ hy]

end View

namespace Rect

variable {s : Shape} {α : Type}

/-- Inside a unit-stride rectangle the overlay is the payload, at the index less the offsets. -/
theorem overlay_unit_of_mem {off size : Fin s.rank → Nat} {inb : ∀ a, off a + size a ≤ s.size a}
    (X : s.Idx → α) (G : (Rect.unit off size inb).shape.Idx → α) (y : s.Idx)
    (x : (Rect.unit off size inb).shape.Idx) (hx : ∀ a, (y a : Nat) = off a + (x a : Nat)) :
    (Rect.unit off size inb).overlay X G y = G x := by
  have : (Rect.unit off size inb).emb x = y := by
    funext a; apply Fin.ext; rw [Rect.emb_apply]; simp only [off_unit, stride_unit, Nat.one_mul]; exact (hx a).symm
  rw [← this, Rect.overlay_emb]

/-- Off a unit-stride rectangle (some coordinate outside its range) the overlay is the old contents. -/
theorem overlay_unit_of_not_mem {off size : Fin s.rank → Nat} {inb : ∀ a, off a + size a ≤ s.size a}
    (X : s.Idx → α) (G : (Rect.unit off size inb).shape.Idx → α) (y : s.Idx)
    (a : Fin s.rank) (ha : (y a : Nat) < off a ∨ off a + size a ≤ (y a : Nat)) :
    (Rect.unit off size inb).overlay X G y = X y := by
  apply Rect.overlay_of_not_mem
  intro hm
  have := (Rect.mem_set_unit.mp hm) a
  omega

/-- A store through the whole shape (zero offsets, however the zeros are spelt) replaces everything. -/
theorem overlay_unit_zero {off : Fin s.rank → Nat} (h : off = fun _ => 0) (inb : ∀ a, off a + s.size a ≤ s.size a)
    (X : s.Idx → α) (w : s.Idx → α) : (Rect.unit off s.size inb).overlay X w = w := by
  subst h; funext y
  have e := Rect.overlay_emb (Rect.whole s) X w y
  rw [Rect.emb_whole_apply] at e
  exact e

/-- The two-axis zero offsets as the constant zero function. -/
theorem zero2 : (![0, 0] : Fin 2 → Nat) = fun _ => 0 := by
  funext a; fin_cases a <;> rfl

end Rect

end Idealize.ShloMosaic

end
-- ==== Proof.Spike.lean ====
/-
  One step of a leaky integrate-and-fire layer, on the extended reals.

  A neuron with membrane potential v that receives the input current I moves its potential to
  v' = v + c · (I − v), with c the single-precision word nearest to 1/20, and emits a spike exactly when v' ≥ 1:
  the output is 1 where it does and 0 where it does not. `spike v I` is that 0/1 value. A kernel writes the 0/1
  value by widening the comparison's bit to a word and converting the word as a signed integer, a host program by
  converting the bit as an unsigned one: the bit is 0 or 1, so both conversions give the same real number.

  The layer has four groups of neurons over a batch of 8192 rows and 1024 neurons per group. Group 0 is driven
  by the external input itself; the other three by projections of the previous step's spikes: the current into
  neuron n of row b from a spike matrix X through a weight matrix T (already transposed: T(l, n) is the weight
  from source neuron l to target neuron n) is Σ_l X(b, l) · T(l, n). Group 1 adds three such projections, groups 2
  and 3 take one each. `layer` is the whole [4, 8192, 1024] result as one function of the thirteen arrays it reads.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Spiking

open Idealize.ShloMosaic Idealize.ShloMosaic.ValueIdx

/-- The 0/1 output of one integrate-and-fire step: 1 exactly when v + c · (I − v) ≥ 1. -/
def spike (v I : EReal) : EReal :=
  (((Ideal.cmp .oge (v + Ideal.ofBits .f32 0x3D4CCCCD#32 * (I - v)) (Ideal.ofBits .f32 0x3F800000#32)).toNat : ℝ) : EReal)

/-- The kernel's spelling of the step on a block — the comparison's bit widened to a word, the word converted as a
    signed integer — read at an index. -/
theorem spike_widened_apply {s : Shape} (v I : FVec Ideal s .f32) (h : 1 < 32) (j : s.Idx) :
    (sitofp .f32 (extui 32 (cmpf .oge (addf v (mulf (broadcast s (Scalar.ofBits (F := Ideal) .f32 0x3D4CCCCD#32)) (subf I v)))
      (broadcast s (Scalar.ofBits (F := Ideal) .f32 0x3F800000#32))) h) : FVec Ideal s .f32) j = spike (v j) (I j) := by
  rw [sitofp_extui_eq_uitofp]
  rfl

/-- A batch of 8192 rows of 1024 values, and a 1024 × 1024 weight matrix. -/
abbrev Rows : Type := (⟨2, ![8192, 1024]⟩ : Shape).Idx → EReal
abbrev Weights : Type := (⟨2, ![1024, 1024]⟩ : Shape).Idx → EReal

/-- A weight matrix with its two axes exchanged. -/
def flip (W : Weights) : Weights := fun j => W (ix2 (j 1) (j 0))

theorem flip_apply (W : Weights) (l n : Fin 1024) : flip W (ix2 l n) = W (ix2 n l) := rfl

/-- The current into neuron n of row b from the spikes X through the (transposed) weights T. -/
def proj (X : Rows) (T : Weights) (b : Fin 8192) (n : Fin 1024) : EReal := ∑ l : Fin 1024, X (ix2 b l) * T (ix2 l n)

/-- The input current of each of the four groups. -/
def current (ext s h1 h2 : Rows) (T1 T2 T3 T4 T5 : Weights) (g : Fin 4) (b : Fin 8192) (n : Fin 1024) : EReal :=
  match g with
  | ⟨0, _⟩ => ext (ix2 b n)
  | ⟨1, _⟩ => proj s T1 b n + proj h2 T3 b n + proj h1 T5 b n
  | ⟨2, _⟩ => proj h1 T2 b n
  | ⟨3, _⟩ => proj h2 T4 b n
  | ⟨_ + 4, h⟩ => absurd h (by omega)

/-- The membrane potential each group starts from. -/
def potential (vs vh1 vh2 vm : Rows) (g : Fin 4) (b : Fin 8192) (n : Fin 1024) : EReal :=
  match g with
  | ⟨0, _⟩ => vs (ix2 b n)
  | ⟨1, _⟩ => vh1 (ix2 b n)
  | ⟨2, _⟩ => vh2 (ix2 b n)
  | ⟨3, _⟩ => vm (ix2 b n)
  | ⟨_ + 4, h⟩ => absurd h (by omega)

/-- The layer's result: at (g, b, n) the spike of group g's neuron n on row b. -/
def layer (ext s h1 h2 vs vh1 vh2 vm : Rows) (T1 T2 T3 T4 T5 : Weights) : (⟨3, ![4, 8192, 1024]⟩ : Shape).Idx → EReal :=
  fun y => spike (potential vs vh1 vh2 vm (y 0) (y 1) (y 2)) (current ext s h1 h2 T1 T2 T3 T4 T5 (y 0) (y 1) (y 2))

theorem layer_apply (ext s h1 h2 vs vh1 vh2 vm : Rows) (T1 T2 T3 T4 T5 : Weights) (g : Fin 4) (b : Fin 8192) (n : Fin 1024) :
    layer ext s h1 h2 vs vh1 vh2 vm T1 T2 T3 T4 T5 (ix3 g b n)
      = spike (potential vs vh1 vh2 vm g b n) (current ext s h1 h2 T1 T2 T3 T4 T5 g b n) := rfl

end Cert.Spiking

end
-- ==== Proof.KernelBlock.lean ====
/-
  What one grid step of the kernel leaves in its output block, read at an index.

  A grid step works on a block of 128 batch rows. It holds the eight row-blocks it reads (the external input, the
  three spike matrices, the four potentials; each 128 × 1024) and the five transposed weight matrices whole
  (1024 × 1024), and fills its [4, 128, 1024] output block with four stores, one plane per group of neurons.
  Plane g at (r, n) is the spike of the potential block at (r, n) driven by group g's current: for group 0 the
  external input at (r, n); for the others Σ_l X(r, l) · T(l, n) over the spike blocks X and weights T the group
  uses — each of the kernel's matrix products starts from a zero accumulator, so at the exact values it is that sum.

  The four planes tile the block: an index on plane g lies in the g-th store's rectangle and in no later one.
-/
import proofs.«167755_j36344013258758_1_alg».proof.Proof.Gen.KernelIdeal.Frame
import proofs.«167755_j36344013258758_1_alg».proof.Proof.LibDenseLayer
import proofs.«167755_j36344013258758_1_alg».proof.Proof.LibOverlay
import proofs.«167755_j36344013258758_1_alg».proof.Proof.Spike

set_option maxRecDepth 16384

noncomputable section

namespace Cert.KernelIdeal.Block

open Cert.KernelIdeal Cert.KernelIdeal.Gen Idealize.ShloMosaic Idealize.ShloMosaic.ValueIdx Cert.Spiking

/-- Offsets that are all zero, as the constant function. -/
theorem zeros2 : (![0, 0] : Fin 2 → Nat) = fun _ => 0 := funext fun a => by fin_cases a <;> rfl

/-- A 128 × 1024 block laid as the one plane of a [1, 128, 1024] block reads, at (u, r, n), the block at (r, n). -/
theorem plane_apply (v : FVec Ideal S128x1024 .f32) (u : Fin 1) (r : Fin 128) (n : Fin 1024) :
    shapeCast S1x128x1024 v shapeCasts_S128x1024_S1x128x1024 (ix3 u r n) = v (ix2 r n) := by
  refine (shapeCast_addUnit_apply ![128, 1024] v shapeCasts_S128x1024_S1x128x1024 (ix3 u r n)).trans ?_
  congr 1
  funext a
  match a with
  | ⟨0, _⟩ => rfl
  | ⟨1, _⟩ => rfl

/-- One of the kernel's products of a 128 × 1024 block with a 1024 × 1024 matrix, from a zero accumulator, at (r, n). -/
theorem product_apply (X : FVec Ideal S128x1024 .f32) (T : FVec Ideal S1024x1024 .f32) (r : Fin 128) (n : Fin 1024) :
    matmul (F := Ideal) dot_S128x1024_S1024x1024_S128x1024_1_0_0_1_n_n none X (shapeCast S1024x1024 T shapeCasts_S1024x1024_S1024x1024)
        (constant S128x1024 .f32 0x00000000#32) (ix2 r n)
      = ∑ l : Fin 1024, X (ix2 r l) * T (ix2 l n) := by
  rw [shapeCast_self]
  exact DenseLayer.matmul_rows_apply dot_S128x1024_S1024x1024_S128x1024_1_0_0_1_n_n.wf none X T r n

/-- Plane 0: the potential block driven by the external input block itself. -/
theorem plane0_apply (x0 x4 : Vec Ideal S128x1024 .f32) (u : Fin 1) (r : Fin 128) (n : Fin 1024) :
    k0_pay7 x4 (k0_pay5 x0 x4) (k0_pay6 (F := Ideal)) (ix3 u r n) = spike (x4 (ix2 r n)) (x0 (ix2 r n)) := by
  unfold k0_pay7 k0_pay5 k0_pay6
  refine (plane_apply _ u r n).trans ?_
  exact spike_widened_apply x4 x0 natLt_1_32 (ix2 r n)

/-- Plane 1: driven by the sum of three projections. -/
theorem plane1_apply (x1 x2 x3 x5 : Vec Ideal S128x1024 .f32) (x8 x10 x12 : Vec Ideal S1024x1024 .f32)
    (u : Fin 1) (r : Fin 128) (n : Fin 1024) :
    k0_pay8 x5 (k0_pay2 x1 x2 x3 x8 x10 x12) (ix3 u r n)
      = spike (x5 (ix2 r n)) ((∑ l : Fin 1024, x1 (ix2 r l) * x8 (ix2 l n)) + (∑ l : Fin 1024, x3 (ix2 r l) * x10 (ix2 l n))
          + ∑ l : Fin 1024, x2 (ix2 r l) * x12 (ix2 l n)) := by
  unfold k0_pay8
  refine (plane_apply _ u r n).trans ?_
  refine (spike_widened_apply x5 (k0_pay2 x1 x2 x3 x8 x10 x12) natLt_1_32 (ix2 r n)).trans ?_
  congr 1
  unfold k0_pay2
  exact congrArg₂ (· + ·) (congrArg₂ (· + ·) (product_apply x1 x8 r n) (product_apply x3 x10 r n)) (product_apply x2 x12 r n)

/-- Plane 2: driven by one projection. -/
theorem plane2_apply (x2 x6 : Vec Ideal S128x1024 .f32) (x9 : Vec Ideal S1024x1024 .f32)
    (u : Fin 1) (r : Fin 128) (n : Fin 1024) :
    k0_pay9 x6 (k0_pay3 x2 x9) (ix3 u r n) = spike (x6 (ix2 r n)) (∑ l : Fin 1024, x2 (ix2 r l) * x9 (ix2 l n)) := by
  unfold k0_pay9
  refine (plane_apply _ u r n).trans ?_
  refine (spike_widened_apply x6 (k0_pay3 x2 x9) natLt_1_32 (ix2 r n)).trans ?_
  congr 1
  unfold k0_pay3
  exact product_apply x2 x9 r n

/-- Plane 3: driven by one projection. -/
theorem plane3_apply (x3 x7 : Vec Ideal S128x1024 .f32) (x11 : Vec Ideal S1024x1024 .f32)
    (u : Fin 1) (r : Fin 128) (n : Fin 1024) :
    k0_pay1 (k0_pay10 x7 (k0_pay4 x3 x11)) (ix3 u r n) = spike (x7 (ix2 r n)) (∑ l : Fin 1024, x3 (ix2 r l) * x11 (ix2 l n)) := by
  unfold k0_pay1 k0_pay10
  refine (plane_apply _ u r n).trans ?_
  refine (spike_widened_apply x7 (k0_pay4 x3 x11) natLt_1_32 (ix2 r n)).trans ?_
  congr 1
  unfold k0_pay4
  exact product_apply x3 x11 r n

/-- Plane g of the output block lies in the g-th store's rectangle: the index (g, r, n) is that rectangle's (0, r, n). -/
theorem in_plane (g : Fin 4) (r : Fin 128) (n : Fin 1024) (a : Fin 3) :
    ((ix3 g r n : S4x128x1024.Idx) a : Nat) = (![g.val, 0, 0] : Fin 3 → Nat) a + ((ix3 (0 : Fin 1) r n : S1x128x1024.Idx) a : Nat) :=
  match a with
  | ⟨0, _⟩ => rfl
  | ⟨1, _⟩ => (Nat.zero_add _).symm
  | ⟨2, _⟩ => (Nat.zero_add _).symm

/-- WHAT A GRID STEP LEAVES IN ITS OUTPUT BLOCK, at (g, r, n): the layer's value at (g, row r, n), for any arrays
    of which the step's row-blocks are the rows `row r` and its weight blocks the whole (transposed) weights. -/
theorem block_apply (x0 x1 x2 x3 x4 x5 x6 x7 : Vec Ideal S128x1024 .f32) (x8 x9 x10 x11 x12 : Vec Ideal S1024x1024 .f32)
    (ext s h1 h2 vs vh1 vh2 vm : Rows) (T1 T2 T3 T4 T5 : Weights) (row : Fin 128 → Fin 8192)
    (e0 : ∀ r n, x0 (ix2 r n) = ext (ix2 (row r) n)) (e1 : ∀ r n, x1 (ix2 r n) = s (ix2 (row r) n))
    (e2 : ∀ r n, x2 (ix2 r n) = h1 (ix2 (row r) n)) (e3 : ∀ r n, x3 (ix2 r n) = h2 (ix2 (row r) n))
    (e4 : ∀ r n, x4 (ix2 r n) = vs (ix2 (row r) n)) (e5 : ∀ r n, x5 (ix2 r n) = vh1 (ix2 (row r) n))
    (e6 : ∀ r n, x6 (ix2 r n) = vh2 (ix2 (row r) n)) (e7 : ∀ r n, x7 (ix2 r n) = vm (ix2 (row r) n))
    (e8 : ∀ l n, x8 (ix2 l n) = T1 (ix2 l n)) (e9 : ∀ l n, x9 (ix2 l n) = T2 (ix2 l n))
    (e10 : ∀ l n, x10 (ix2 l n) = T3 (ix2 l n)) (e11 : ∀ l n, x11 (ix2 l n) = T4 (ix2 l n))
    (e12 : ∀ l n, x12 (ix2 l n) = T5 (ix2 l n))
    (g : Fin 4) (r : Fin 128) (n : Fin 1024) :
    out0_13 x0 x1 x2 x3 x4 x5 x6 x7 x8 x9 x10 x11 x12 (ix3 g r n)
      = layer ext s h1 h2 vs vh1 vh2 vm T1 T2 T3 T4 T5 (ix3 g (row r) n) := by
  rw [layer_apply]
  unfold out0_13
  simp only [View.ld_unit_zero (S := S128x1024) zeros2, View.ld_unit_zero (S := S1024x1024) zeros2]
  show r0_5.overlay (r0_4.overlay (r0_3.overlay (r0_2.overlay _ _) _) _) _ (ix3 g r n) = _
  match g with
  | ⟨3, _⟩ =>
    refine (Rect.overlay_unit_of_mem (s := S4x128x1024) (off := ![3, 0, 0]) (size := S1x128x1024.size) (inb := inb_S4x128x1024_S1x128x1024_3_0_0) _ _ (ix3 3 r n) (ix3 0 r n)
      (in_plane 3 r n)).trans ?_
    refine (plane3_apply x3 x7 x11 0 r n).trans ?_
    show spike (x7 (ix2 r n)) (∑ l : Fin 1024, x3 (ix2 r l) * x11 (ix2 l n)) = spike (vm (ix2 (row r) n)) (proj h2 T4 (row r) n)
    unfold proj
    simp only [e7, e3, e11]
  | ⟨2, _⟩ =>
    refine (Rect.overlay_unit_of_not_mem (s := S4x128x1024) (off := ![3, 0, 0]) (size := S1x128x1024.size) (inb := inb_S4x128x1024_S1x128x1024_3_0_0) _ _ (ix3 2 r n) 0
      (Or.inl (show (2 : Nat) < 3 by omega))).trans ?_
    refine (Rect.overlay_unit_of_mem (s := S4x128x1024) (off := ![2, 0, 0]) (size := S1x128x1024.size) (inb := inb_S4x128x1024_S1x128x1024_2_0_0) _ _ (ix3 2 r n) (ix3 0 r n)
      (in_plane 2 r n)).trans ?_
    refine (plane2_apply x2 x6 x9 0 r n).trans ?_
    show spike (x6 (ix2 r n)) (∑ l : Fin 1024, x2 (ix2 r l) * x9 (ix2 l n)) = spike (vh2 (ix2 (row r) n)) (proj h1 T2 (row r) n)
    unfold proj
    simp only [e6, e2, e9]
  | ⟨1, _⟩ =>
    refine (Rect.overlay_unit_of_not_mem (s := S4x128x1024) (off := ![3, 0, 0]) (size := S1x128x1024.size) (inb := inb_S4x128x1024_S1x128x1024_3_0_0) _ _ (ix3 1 r n) 0
      (Or.inl (show (1 : Nat) < 3 by omega))).trans ?_
    refine (Rect.overlay_unit_of_not_mem (s := S4x128x1024) (off := ![2, 0, 0]) (size := S1x128x1024.size) (inb := inb_S4x128x1024_S1x128x1024_2_0_0) _ _ (ix3 1 r n) 0
      (Or.inl (show (1 : Nat) < 2 by omega))).trans ?_
    refine (Rect.overlay_unit_of_mem (s := S4x128x1024) (off := ![1, 0, 0]) (size := S1x128x1024.size) (inb := inb_S4x128x1024_S1x128x1024_1_0_0) _ _ (ix3 1 r n) (ix3 0 r n)
      (in_plane 1 r n)).trans ?_
    refine (plane1_apply x1 x2 x3 x5 x8 x10 x12 0 r n).trans ?_
    show spike (x5 (ix2 r n)) ((∑ l : Fin 1024, x1 (ix2 r l) * x8 (ix2 l n)) + (∑ l : Fin 1024, x3 (ix2 r l) * x10 (ix2 l n))
          + ∑ l : Fin 1024, x2 (ix2 r l) * x12 (ix2 l n))
        = spike (vh1 (ix2 (row r) n)) (proj s T1 (row r) n + proj h2 T3 (row r) n + proj h1 T5 (row r) n)
    unfold proj
    simp only [e5, e1, e8, e3, e10, e2, e12]
  | ⟨0, _⟩ =>
    refine (Rect.overlay_unit_of_not_mem (s := S4x128x1024) (off := ![3, 0, 0]) (size := S1x128x1024.size) (inb := inb_S4x128x1024_S1x128x1024_3_0_0) _ _ (ix3 0 r n) 0
      (Or.inl (show (0 : Nat) < 3 by omega))).trans ?_
    refine (Rect.overlay_unit_of_not_mem (s := S4x128x1024) (off := ![2, 0, 0]) (size := S1x128x1024.size) (inb := inb_S4x128x1024_S1x128x1024_2_0_0) _ _ (ix3 0 r n) 0
      (Or.inl (show (0 : Nat) < 2 by omega))).trans ?_
    refine (Rect.overlay_unit_of_not_mem (s := S4x128x1024) (off := ![1, 0, 0]) (size := S1x128x1024.size) (inb := inb_S4x128x1024_S1x128x1024_1_0_0) _ _ (ix3 0 r n) 0
      (Or.inl (show (0 : Nat) < 1 by omega))).trans ?_
    refine (Rect.overlay_unit_of_mem (s := S4x128x1024) (off := ![0, 0, 0]) (size := S1x128x1024.size) (inb := inb_S4x128x1024_S1x128x1024_0_0_0) _ _ (ix3 0 r n) (ix3 0 r n)
      (in_plane 0 r n)).trans ?_
    refine (plane0_apply x0 x4 0 r n).trans ?_
    show spike (x4 (ix2 r n)) (x0 (ix2 r n)) = spike (vs (ix2 (row r) n)) (ext (ix2 (row r) n))
    rw [e4, e0]

end Cert.KernelIdeal.Block

end
-- ==== Proof.KernelValue.lean ====
/-
  From the grid steps' blocks to the whole result array.

  The grid has 64 steps. At step t every row-block window holds rows 128·t … 128·t + 127 of its array and every weight
  window its whole matrix, and the output window's block is [all four planes] × [those same rows] × [all 1024 columns] of
  the result. So what step t writes back is exactly that block of the layer's value (by the block lemma, with row r of
  the block being row 128·t + r of the arrays), and the 64 blocks tile the result: row b lies in step b / 128's block.
  Hence the result array after the run is the layer of the arrays as the region finds them; the row arrays are the
  program's arguments untouched, and the weight arrays are the arguments transposed by the host operations before the
  region.
-/
import proofs.«167755_j36344013258758_1_alg».proof.Proof.Gen.KernelIdeal.Value
import proofs.«167755_j36344013258758_1_alg».proof.Proof.KernelBlock
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Spiking Cert.KernelIdeal.Block
open Idealize.ShloMosaic.Pipeline (Dat)

variable (m : (ℓ : Loc nD τ sig) → Buf (Elt Ideal) ℓ) (ρ : Dev nD → PrngReg)

/-! ## Where each window's block sits, decided over the 64 grid points -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 3) = 0 ∧ win0_13.index t (1 : Fin 3) = t.val ∧ win0_13.index t (2 : Fin 3) = 0 :=
  (by decide +kernel : ∀ t : Fin grid0.N, _)

theorem point_lt : ∀ t : Fin cfg0.N, t.val < 64 := (by decide +kernel : ∀ t : Fin grid0.N, _)

/-- Row r of step t's blocks is row 128·t + r of the arrays. -/
def rowOf (t : Fin cfg0.N) (r : Fin 128) : Fin 8192 := ⟨128 * t.val + r.val, by have := point_lt t; have := r.isLt; omega⟩

theorem rowOf_val (t : Fin cfg0.N) (r : Fin 128) : (rowOf t r).val = 128 * t.val + r.val := rfl

/-! ## The input windows' blocks, read at an index -/

/-- Row-block window 0 at point t holds rows 128·t … 128·t + 127 of its array. -/
theorem rows0 (c : Dev nD) (t : Fin cfg0.N) (r : Fin 128) (n : Fin 1024) :
    iblk m c 0 t (ix2 r n) = V m c main_arg0 (ix2 (rowOf t r) n) := by
  show V m c main_arg0 (((cfg0.win 0).blk t).view.emb (ix2 r n)) = _
  refine congrArg _ (funext fun a => Fin.ext ?_)
  obtain ⟨i0, i1⟩ := index0 t
  match a with
  | ⟨0, _⟩ => show win0_0.index t (0 : Fin 2) * 128 + 1 * r.val = 128 * t.val + r.val; have i0' : win0_0.index t (0 : Fin 2) = t.val := i0; omega
  | ⟨1, _⟩ => show win0_0.index t (1 : Fin 2) * 1024 + 1 * n.val = n.val; have i1' : win0_0.index t (1 : Fin 2) = 0 := i1; omega

/-- Row-block window 1 at point t holds rows 128·t … 128·t + 127 of its array. -/
theorem rows1 (c : Dev nD) (t : Fin cfg0.N) (r : Fin 128) (n : Fin 1024) :
    iblk m c 1 t (ix2 r n) = V m c main_arg1 (ix2 (rowOf t r) n) := by
  show V m c main_arg1 (((cfg0.win 1).blk t).view.emb (ix2 r n)) = _
  refine congrArg _ (funext fun a => Fin.ext ?_)
  obtain ⟨i0, i1⟩ := index1 t
  match a with
  | ⟨0, _⟩ => show win0_1.index t (0 : Fin 2) * 128 + 1 * r.val = 128 * t.val + r.val; have i0' : win0_1.index t (0 : Fin 2) = t.val := i0; omega
  | ⟨1, _⟩ => show win0_1.index t (1 : Fin 2) * 1024 + 1 * n.val = n.val; have i1' : win0_1.index t (1 : Fin 2) = 0 := i1; omega

/-- Row-block window 2 at point t holds rows 128·t … 128·t + 127 of its array. -/
theorem rows2 (c : Dev nD) (t : Fin cfg0.N) (r : Fin 128) (n : Fin 1024) :
    iblk m c 2 t (ix2 r n) = V m c main_arg2 (ix2 (rowOf t r) n) := by
  show V m c main_arg2 (((cfg0.win 2).blk t).view.emb (ix2 r n)) = _
  refine congrArg _ (funext fun a => Fin.ext ?_)
  obtain ⟨i0, i1⟩ := index2 t
  match a with
  | ⟨0, _⟩ => show win0_2.index t (0 : Fin 2) * 128 + 1 * r.val = 128 * t.val + r.val; have i0' : win0_2.index t (0 : Fin 2) = t.val := i0; omega
  | ⟨1, _⟩ => show win0_2.index t (1 : Fin 2) * 1024 + 1 * n.val = n.val; have i1' : win0_2.index t (1 : Fin 2) = 0 := i1; omega

/-- Row-block window 3 at point t holds rows 128·t … 128·t + 127 of its array. -/
theorem rows3 (c : Dev nD) (t : Fin cfg0.N) (r : Fin 128) (n : Fin 1024) :
    iblk m c 3 t (ix2 r n) = V m c main_arg3 (ix2 (rowOf t r) n) := by
  show V m c main_arg3 (((cfg0.win 3).blk t).view.emb (ix2 r n)) = _
  refine congrArg _ (funext fun a => Fin.ext ?_)
  obtain ⟨i0, i1⟩ := index3 t
  match a with
  | ⟨0, _⟩ => show win0_3.index t (0 : Fin 2) * 128 + 1 * r.val = 128 * t.val + r.val; have i0' : win0_3.index t (0 : Fin 2) = t.val := i0; omega
  | ⟨1, _⟩ => show win0_3.index t (1 : Fin 2) * 1024 + 1 * n.val = n.val; have i1' : win0_3.index t (1 : Fin 2) = 0 := i1; omega

/-- Row-block window 4 at point t holds rows 128·t … 128·t + 127 of its array. -/
theorem rows4 (c : Dev nD) (t : Fin cfg0.N) (r : Fin 128) (n : Fin 1024) :
    iblk m c 4 t (ix2 r n) = V m c main_arg5 (ix2 (rowOf t r) n) := by
  show V m c main_arg5 (((cfg0.win 4).blk t).view.emb (ix2 r n)) = _
  refine congrArg _ (funext fun a => Fin.ext ?_)
  obtain ⟨i0, i1⟩ := index4 t
  match a with
  | ⟨0, _⟩ => show win0_4.index t (0 : Fin 2) * 128 + 1 * r.val = 128 * t.val + r.val; have i0' : win0_4.index t (0 : Fin 2) = t.val := i0; omega
  | ⟨1, _⟩ => show win0_4.index t (1 : Fin 2) * 1024 + 1 * n.val = n.val; have i1' : win0_4.index t (1 : Fin 2) = 0 := i1; omega

/-- Row-block window 5 at point t holds rows 128·t … 128·t + 127 of its array. -/
theorem rows5 (c : Dev nD) (t : Fin cfg0.N) (r : Fin 128) (n : Fin 1024) :
    iblk m c 5 t (ix2 r n) = V m c main_arg6 (ix2 (rowOf t r) n) := by
  show V m c main_arg6 (((cfg0.win 5).blk t).view.emb (ix2 r n)) = _
  refine congrArg _ (funext fun a => Fin.ext ?_)
  obtain ⟨i0, i1⟩ := index5 t
  match a with
  | ⟨0, _⟩ => show win0_5.index t (0 : Fin 2) * 128 + 1 * r.val = 128 * t.val + r.val; have i0' : win0_5.index t (0 : Fin 2) = t.val := i0; omega
  | ⟨1, _⟩ => show win0_5.index t (1 : Fin 2) * 1024 + 1 * n.val = n.val; have i1' : win0_5.index t (1 : Fin 2) = 0 := i1; omega

/-- Row-block window 6 at point t holds rows 128·t … 128·t + 127 of its array. -/
theorem rows6 (c : Dev nD) (t : Fin cfg0.N) (r : Fin 128) (n : Fin 1024) :
    iblk m c 6 t (ix2 r n) = V m c main_arg7 (ix2 (rowOf t r) n) := by
  show V m c main_arg7 (((cfg0.win 6).blk t).view.emb (ix2 r n)) = _
  refine congrArg _ (funext fun a => Fin.ext ?_)
  obtain ⟨i0, i1⟩ := index6 t
  match a with
  | ⟨0, _⟩ => show win0_6.index t (0 : Fin 2) * 128 + 1 * r.val = 128 * t.val + r.val; have i0' : win0_6.index t (0 : Fin 2) = t.val := i0; omega
  | ⟨1, _⟩ => show win0_6.index t (1 : Fin 2) * 1024 + 1 * n.val = n.val; have i1' : win0_6.index t (1 : Fin 2) = 0 := i1; omega

/-- Row-block window 7 at point t holds rows 128·t … 128·t + 127 of its array. -/
theorem rows7 (c : Dev nD) (t : Fin cfg0.N) (r : Fin 128) (n : Fin 1024) :
    iblk m c 7 t (ix2 r n) = V m c main_arg8 (ix2 (rowOf t r) n) := by
  show V m c main_arg8 (((cfg0.win 7).blk t).view.emb (ix2 r n)) = _
  refine congrArg _ (funext fun a => Fin.ext ?_)
  obtain ⟨i0, i1⟩ := index7 t
  match a with
  | ⟨0, _⟩ => show win0_7.index t (0 : Fin 2) * 128 + 1 * r.val = 128 * t.val + r.val; have i0' : win0_7.index t (0 : Fin 2) = t.val := i0; omega
  | ⟨1, _⟩ => show win0_7.index t (1 : Fin 2) * 1024 + 1 * n.val = n.val; have i1' : win0_7.index t (1 : Fin 2) = 0 := i1; omega

/-- Weight window 8 holds its whole matrix at every point. -/
theorem weights8 (c : Dev nD) (t : Fin cfg0.N) (l n : Fin 1024) :
    iblk m c 8 t (ix2 l n) = V m c main_v0 (ix2 l n) := by
  show V m c main_v0 (((cfg0.win 8).blk t).view.emb (ix2 l n)) = _
  refine congrArg _ (funext fun a => Fin.ext ?_)
  obtain ⟨i0, i1⟩ := index8 t
  match a with
  | ⟨0, _⟩ => show win0_8.index t (0 : Fin 2) * 1024 + 1 * l.val = l.val; have i0' : win0_8.index t (0 : Fin 2) = 0 := i0; omega
  | ⟨1, _⟩ => show win0_8.index t (1 : Fin 2) * 1024 + 1 * n.val = n.val; have i1' : win0_8.index t (1 : Fin 2) = 0 := i1; omega

/-- Weight window 9 holds its whole matrix at every point. -/
theorem weights9 (c : Dev nD) (t : Fin cfg0.N) (l n : Fin 1024) :
    iblk m c 9 t (ix2 l n) = V m c main_v1 (ix2 l n) := by
  show V m c main_v1 (((cfg0.win 9).blk t).view.emb (ix2 l n)) = _
  refine congrArg _ (funext fun a => Fin.ext ?_)
  obtain ⟨i0, i1⟩ := index9 t
  match a with
  | ⟨0, _⟩ => show win0_9.index t (0 : Fin 2) * 1024 + 1 * l.val = l.val; have i0' : win0_9.index t (0 : Fin 2) = 0 := i0; omega
  | ⟨1, _⟩ => show win0_9.index t (1 : Fin 2) * 1024 + 1 * n.val = n.val; have i1' : win0_9.index t (1 : Fin 2) = 0 := i1; omega

/-- Weight window 10 holds its whole matrix at every point. -/
theorem weights10 (c : Dev nD) (t : Fin cfg0.N) (l n : Fin 1024) :
    iblk m c 10 t (ix2 l n) = V m c main_v2 (ix2 l n) := by
  show V m c main_v2 (((cfg0.win 10).blk t).view.emb (ix2 l n)) = _
  refine congrArg _ (funext fun a => Fin.ext ?_)
  obtain ⟨i0, i1⟩ := index10 t
  match a with
  | ⟨0, _⟩ => show win0_10.index t (0 : Fin 2) * 1024 + 1 * l.val = l.val; have i0' : win0_10.index t (0 : Fin 2) = 0 := i0; omega
  | ⟨1, _⟩ => show win0_10.index t (1 : Fin 2) * 1024 + 1 * n.val = n.val; have i1' : win0_10.index t (1 : Fin 2) = 0 := i1; omega

/-- Weight window 11 holds its whole matrix at every point. -/
theorem weights11 (c : Dev nD) (t : Fin cfg0.N) (l n : Fin 1024) :
    iblk m c 11 t (ix2 l n) = V m c main_v3 (ix2 l n) := by
  show V m c main_v3 (((cfg0.win 11).blk t).view.emb (ix2 l n)) = _
  refine congrArg _ (funext fun a => Fin.ext ?_)
  obtain ⟨i0, i1⟩ := index11 t
  match a with
  | ⟨0, _⟩ => show win0_11.index t (0 : Fin 2) * 1024 + 1 * l.val = l.val; have i0' : win0_11.index t (0 : Fin 2) = 0 := i0; omega
  | ⟨1, _⟩ => show win0_11.index t (1 : Fin 2) * 1024 + 1 * n.val = n.val; have i1' : win0_11.index t (1 : Fin 2) = 0 := i1; omega

/-- Weight window 12 holds its whole matrix at every point. -/
theorem weights12 (c : Dev nD) (t : Fin cfg0.N) (l n : Fin 1024) :
    iblk m c 12 t (ix2 l n) = V m c main_v4 (ix2 l n) := by
  show V m c main_v4 (((cfg0.win 12).blk t).view.emb (ix2 l n)) = _
  refine congrArg _ (funext fun a => Fin.ext ?_)
  obtain ⟨i0, i1⟩ := index12 t
  match a with
  | ⟨0, _⟩ => show win0_12.index t (0 : Fin 2) * 1024 + 1 * l.val = l.val; have i0' : win0_12.index t (0 : Fin 2) = 0 := i0; omega
  | ⟨1, _⟩ => show win0_12.index t (1 : Fin 2) * 1024 + 1 * n.val = n.val; have i1' : win0_12.index t (1 : Fin 2) = 0 := i1; omega

/-! ## What a step writes back -/

/-- The output block's index (g, r, n) at step t is the result's index (g, 128·t + r, n). -/
theorem out_index (t : Fin cfg0.N) (g : Fin 4) (r : Fin 128) (n : Fin 1024) :
    ((cfg0.win 13).blk t).view.emb (ix3 g r n) = ix3 g (rowOf t r) n := by
  funext a
  apply Fin.ext
  obtain ⟨i0, i1, i2⟩ := index13 t
  match a with
  | ⟨0, _⟩ => show win0_13.index t (0 : Fin 3) * 4 + 1 * g.val = g.val; have i0' : win0_13.index t (0 : Fin 3) = 0 := i0; omega
  | ⟨1, _⟩ => show win0_13.index t (1 : Fin 3) * 128 + 1 * r.val = 128 * t.val + r.val; have i1' : win0_13.index t (1 : Fin 3) = t.val := i1; omega
  | ⟨2, _⟩ => show win0_13.index t (2 : Fin 3) * 1024 + 1 * n.val = n.val; have i2' : win0_13.index t (2 : Fin 3) = 0 := i2; omega

/-- The layer of the arrays as the region finds them. -/
def entryLayer (c : Dev nD) : S4x8192x1024.Idx → EReal :=
  layer (V m c main_arg0) (V m c main_arg1) (V m c main_arg2) (V m c main_arg3) (V m c main_arg5) (V m c main_arg6) (V m c main_arg7) (V m c main_arg8) (V m c main_v0) (V m c main_v1) (V m c main_v2) (V m c main_v3) (V m c main_v4)

/-- WHAT STEP t WRITES BACK is block t of the layer's value. -/
theorem flushed_eq (c : Dev nD) (t : Fin cfg0.N) :
    (dats m 0 c).flushed 13 t = ((cfg0.win 13).blk t).view.read (Elt Ideal) (entryLayer m c) := by
  rw [Value.flushed13]
  funext j
  obtain ⟨g, r, n, rfl⟩ : ∃ (g : Fin 4) (r : Fin 128) (n : Fin 1024), j = ix3 g r n := ⟨j 0, j 1, j 2, eq_ix3 j⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 g r n)
    = entryLayer m c (((cfg0.win 13).blk t).view.emb (ix3 g r n))
  rw [out_index]
  exact block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (V m c main_arg0) (V m c main_arg1) (V m c main_arg2) (V m c main_arg3) (V m c main_arg5) (V m c main_arg6) (V m c main_arg7) (V m c main_arg8) (V m c main_v0) (V m c main_v1) (V m c main_v2) (V m c main_v3) (V m c main_v4) (rowOf t)
    (rows0 m c t) (rows1 m c t) (rows2 m c t) (rows3 m c t) (rows4 m c t) (rows5 m c t) (rows6 m c t) (rows7 m c t)
    (weights8 m c t) (weights9 m c t) (weights10 m c t) (weights11 m c t) (weights12 m c t) g r n

/-! ## The blocks tile the result -/

/-- An index of the result is in step t's block iff each coordinate is in the block's range on its axis. -/
theorem mem_block (t : Fin cfg0.N) (i : S4x8192x1024.Idx) :
    i ∈ ((cfg0.win 13).blk t).view.set ↔ ∀ a : Fin 3, win0_13.index t a * S4x128x1024.size a ≤ (i a).val
      ∧ (i a).val < win0_13.index t a * S4x128x1024.size a + S4x128x1024.size a := by
  show i ∈ ((View.whole main_v5).slice (win0_13.rect t)).set ↔ _
  rw [View.set_slice_whole, Rect.mem_set_unit]
  exact Iff.rfl

/-- Every index of the result lies in the block of the step its row names. -/
theorem covered (i : S4x8192x1024.Idx) :
    ∃ t : Fin cfg0.N, (cfg0.win 13).flush t = true ∧ i ∈ ((cfg0.win 13).blk t).view.set := by
  have h0 : (i 0).val < 4 := (i 0).isLt
  have h1 : (i 1).val < 8192 := (i 1).isLt
  have h2 : (i 2).val < 1024 := (i 2).isLt
  obtain ⟨t, ht⟩ : ∃ t : Fin cfg0.N, t.val = (i 1).val / 128 := ⟨⟨(i 1).val / 128, by show (i 1).val / 128 < 64; omega⟩, rfl⟩
  refine ⟨t, flush0_13 t, ?_⟩
  rw [mem_block]
  obtain ⟨i0, i1, i2⟩ := index13 t
  intro a
  match a with
  | ⟨0, _⟩ => show win0_13.index t (0 : Fin 3) * 4 ≤ (i 0).val ∧ (i 0).val < win0_13.index t (0 : Fin 3) * 4 + 4; have i0' : win0_13.index t (0 : Fin 3) = 0 := i0; omega
  | ⟨1, _⟩ => show win0_13.index t (1 : Fin 3) * 128 ≤ (i 1).val ∧ (i 1).val < win0_13.index t (1 : Fin 3) * 128 + 128; have i1' : win0_13.index t (1 : Fin 3) = t.val := i1; omega
  | ⟨2, _⟩ => show win0_13.index t (2 : Fin 3) * 1024 ≤ (i 2).val ∧ (i 2).val < win0_13.index t (2 : Fin 3) * 1024 + 1024; have i2' : win0_13.index t (2 : Fin 3) = 0 := i2; omega

/-- THE RESULT ARRAY after the run is the layer of the arrays as the region finds them. -/
theorem final (c : Dev nD) : (dats m 0 c).arrAt 13 cfg0.N = entryLayer m c :=
  (dats m 0 c).arrAt_eq_of_cover 13 (entryLayer m c) (fun t _ => flushed_eq m c t) covered

/-! ## The arrays the region finds, from the program's arguments -/

/-- The host transposes weight matrix main_arg9 before the region: window 8's array is that matrix with its axes exchanged. -/
theorem entry_main_v0 (c : Dev nD) : (V m c main_v0 : S1024x1024.Idx → EReal) = flip (m ((c : Thread nD τ).loc main_arg9)) := by
  have e : (V m c main_v0 : S1024x1024.Idx → EReal)
      = transpose S1024x1024 [1, 0] (m ((c : Thread nD τ).loc main_arg9)) transposes_S1024x1024_S1024x1024_1_0 := by
    dsimp only [Gen.V, Gen.hostOps0]; after_results
  rw [e]
  funext j
  exact transpose_apply [1, 0] _ transposes_S1024x1024_S1024x1024_1_0 j (ix2 (j 1) (j 0)) (fun b => match b with
    | ⟨0, _⟩ => rfl
    | ⟨1, _⟩ => rfl)

/-- The host transposes weight matrix main_arg10 before the region: window 9's array is that matrix with its axes exchanged. -/
theorem entry_main_v1 (c : Dev nD) : (V m c main_v1 : S1024x1024.Idx → EReal) = flip (m ((c : Thread nD τ).loc main_arg10)) := by
  have e : (V m c main_v1 : S1024x1024.Idx → EReal)
      = transpose S1024x1024 [1, 0] (m ((c : Thread nD τ).loc main_arg10)) transposes_S1024x1024_S1024x1024_1_0 := by
    dsimp only [Gen.V, Gen.hostOps0]; after_results
  rw [e]
  funext j
  exact transpose_apply [1, 0] _ transposes_S1024x1024_S1024x1024_1_0 j (ix2 (j 1) (j 0)) (fun b => match b with
    | ⟨0, _⟩ => rfl
    | ⟨1, _⟩ => rfl)

/-- The host transposes weight matrix main_arg11 before the region: window 10's array is that matrix with its axes exchanged. -/
theorem entry_main_v2 (c : Dev nD) : (V m c main_v2 : S1024x1024.Idx → EReal) = flip (m ((c : Thread nD τ).loc main_arg11)) := by
  have e : (V m c main_v2 : S1024x1024.Idx → EReal)
      = transpose S1024x1024 [1, 0] (m ((c : Thread nD τ).loc main_arg11)) transposes_S1024x1024_S1024x1024_1_0 := by
    dsimp only [Gen.V, Gen.hostOps0]; after_results
  rw [e]
  funext j
  exact transpose_apply [1, 0] _ transposes_S1024x1024_S1024x1024_1_0 j (ix2 (j 1) (j 0)) (fun b => match b with
    | ⟨0, _⟩ => rfl
    | ⟨1, _⟩ => rfl)

/-- The host transposes weight matrix main_arg12 before the region: window 11's array is that matrix with its axes exchanged. -/
theorem entry_main_v3 (c : Dev nD) : (V m c main_v3 : S1024x1024.Idx → EReal) = flip (m ((c : Thread nD τ).loc main_arg12)) := by
  have e : (V m c main_v3 : S1024x1024.Idx → EReal)
      = transpose S1024x1024 [1, 0] (m ((c : Thread nD τ).loc main_arg12)) transposes_S1024x1024_S1024x1024_1_0 := by
    dsimp only [Gen.V, Gen.hostOps0]; after_results
  rw [e]
  funext j
  exact transpose_apply [1, 0] _ transposes_S1024x1024_S1024x1024_1_0 j (ix2 (j 1) (j 0)) (fun b => match b with
    | ⟨0, _⟩ => rfl
    | ⟨1, _⟩ => rfl)

/-- The host transposes weight matrix main_arg13 before the region: window 12's array is that matrix with its axes exchanged. -/
theorem entry_main_v4 (c : Dev nD) : (V m c main_v4 : S1024x1024.Idx → EReal) = flip (m ((c : Thread nD τ).loc main_arg13)) := by
  have e : (V m c main_v4 : S1024x1024.Idx → EReal)
      = transpose S1024x1024 [1, 0] (m ((c : Thread nD τ).loc main_arg13)) transposes_S1024x1024_S1024x1024_1_0 := by
    dsimp only [Gen.V, Gen.hostOps0]; after_results
  rw [e]
  funext j
  exact transpose_apply [1, 0] _ transposes_S1024x1024_S1024x1024_1_0 j (ix2 (j 1) (j 0)) (fun b => match b with
    | ⟨0, _⟩ => rfl
    | ⟨1, _⟩ => rfl)

/-- The layer of the arrays the region finds is the layer of the arguments, the weights with their axes exchanged. -/
theorem entryLayer_eq (c : Dev nD) :
    entryLayer m c = layer (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (flip (m ((c : Thread nD τ).loc main_arg9))) (flip (m ((c : Thread nD τ).loc main_arg10))) (flip (m ((c : Thread nD τ).loc main_arg11))) (flip (m ((c : Thread nD τ).loc main_arg12))) (flip (m ((c : Thread nD τ).loc main_arg13))) := by
  unfold entryLayer
  rw [V_main_arg0, V_main_arg1, V_main_arg2, V_main_arg3, V_main_arg5, V_main_arg6, V_main_arg7, V_main_arg8,
    entry_main_v0, entry_main_v1, entry_main_v2, entry_main_v3, entry_main_v4]

/-! ## The run, read -/

/-- Every weakly fair execution of the kernel program ends with the result array at the layer of the arguments and the
    arguments unchanged. -/
theorem run : θ_run defs (onTc (τ := τ) (main (F := Ideal))) ⟨m, fun _ => 0, ρ⟩ fun r => ∀ c : Dev nD,
      r.2.mem ((c : Thread nD τ).loc main_v5) = layer (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (flip (m ((c : Thread nD τ).loc main_arg9))) (flip (m ((c : Thread nD τ).loc main_arg10))) (flip (m ((c : Thread nD τ).loc main_arg11))) (flip (m ((c : Thread nD τ).loc main_arg12))) (flip (m ((c : Thread nD τ).loc main_arg13)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨(h c).1.trans ((final m c).trans (entryLayer_eq m c)), (h c).2⟩)
    (Value.run_blocks m ρ)

end Cert.KernelIdeal.Whole

end
-- ==== Proof.RefValue.lean ====
/-
  The host program computes the layer.

  The host transposes each weight matrix and multiplies: its product of the spikes X with the transposed W reads, at
  (b, n), Σ_l X(b, l) · W(n, l) — the projection through W with its axes exchanged. It then takes the integrate-and-fire
  step of each group over the whole batch, lays each group's [8192, 1024] result as one plane [1, 8192, 1024], and joins the
  four planes along the leading axis: the entry (g, b, n) of the result is plane g at (0, b, n), which is group g's spike
  at (b, n).
-/
import proofs.«167755_j36344013258758_1_alg».proof.Proof.Gen.ReferenceIdeal.Read
import proofs.«167755_j36344013258758_1_alg».proof.Proof.Spike

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Spiking

/-- Host product %1: row b of the spikes against row n of the weights, the weights having been transposed first. -/
theorem product1_apply (x1 : (⟨S8192x1024, .f32⟩ : BufTy).Contents (Elt Ideal)) (x9 : (⟨S1024x1024, .f32⟩ : BufTy).Contents (Elt Ideal)) (b : Fin 8192) (n : Fin 1024) :
    val_main_v1 (F := Ideal) x1 x9 (ix2 b n) = proj x1 (flip x9) b n := by
  rw [val_main_v1_apply]
  unfold proj
  refine Finset.sum_congr rfl fun l _ => ?_
  have hl : lidx_main_v1 (ix2 b n) l = ix2 b l := funext fun a => match a with
    | ⟨0, _⟩ => rfl
    | ⟨1, _⟩ => rfl
  have hr : idx_main_v0 (ridx_main_v1 (ix2 b n) l) = ix2 n l := funext fun a => match a with
    | ⟨0, _⟩ => rfl
    | ⟨1, _⟩ => rfl
  rw [hl, val_main_v0_apply, hr]
  rfl

/-- Host product %3: row b of the spikes against row n of the weights, the weights having been transposed first. -/
theorem product3_apply (x3 : (⟨S8192x1024, .f32⟩ : BufTy).Contents (Elt Ideal)) (x11 : (⟨S1024x1024, .f32⟩ : BufTy).Contents (Elt Ideal)) (b : Fin 8192) (n : Fin 1024) :
    val_main_v3 (F := Ideal) x3 x11 (ix2 b n) = proj x3 (flip x11) b n := by
  rw [val_main_v3_apply]
  unfold proj
  refine Finset.sum_congr rfl fun l _ => ?_
  have hl : lidx_main_v3 (ix2 b n) l = ix2 b l := funext fun a => match a with
    | ⟨0, _⟩ => rfl
    | ⟨1, _⟩ => rfl
  have hr : idx_main_v2 (ridx_main_v3 (ix2 b n) l) = ix2 n l := funext fun a => match a with
    | ⟨0, _⟩ => rfl
    | ⟨1, _⟩ => rfl
  rw [hl, val_main_v2_apply, hr]
  rfl

/-- Host product %6: row b of the spikes against row n of the weights, the weights having been transposed first. -/
theorem product6_apply (x2 : (⟨S8192x1024, .f32⟩ : BufTy).Contents (Elt Ideal)) (x13 : (⟨S1024x1024, .f32⟩ : BufTy).Contents (Elt Ideal)) (b : Fin 8192) (n : Fin 1024) :
    val_main_v6 (F := Ideal) x2 x13 (ix2 b n) = proj x2 (flip x13) b n := by
  rw [val_main_v6_apply]
  unfold proj
  refine Finset.sum_congr rfl fun l _ => ?_
  have hl : lidx_main_v6 (ix2 b n) l = ix2 b l := funext fun a => match a with
    | ⟨0, _⟩ => rfl
    | ⟨1, _⟩ => rfl
  have hr : idx_main_v5 (ridx_main_v6 (ix2 b n) l) = ix2 n l := funext fun a => match a with
    | ⟨0, _⟩ => rfl
    | ⟨1, _⟩ => rfl
  rw [hl, val_main_v5_apply, hr]
  rfl

/-- Host product %9: row b of the spikes against row n of the weights, the weights having been transposed first. -/
theorem product9_apply (x2 : (⟨S8192x1024, .f32⟩ : BufTy).Contents (Elt Ideal)) (x10 : (⟨S1024x1024, .f32⟩ : BufTy).Contents (Elt Ideal)) (b : Fin 8192) (n : Fin 1024) :
    val_main_v9 (F := Ideal) x2 x10 (ix2 b n) = proj x2 (flip x10) b n := by
  rw [val_main_v9_apply]
  unfold proj
  refine Finset.sum_congr rfl fun l _ => ?_
  have hl : lidx_main_v9 (ix2 b n) l = ix2 b l := funext fun a => match a with
    | ⟨0, _⟩ => rfl
    | ⟨1, _⟩ => rfl
  have hr : idx_main_v8 (ridx_main_v9 (ix2 b n) l) = ix2 n l := funext fun a => match a with
    | ⟨0, _⟩ => rfl
    | ⟨1, _⟩ => rfl
  rw [hl, val_main_v8_apply, hr]
  rfl

/-- Host product %11: row b of the spikes against row n of the weights, the weights having been transposed first. -/
theorem product11_apply (x3 : (⟨S8192x1024, .f32⟩ : BufTy).Contents (Elt Ideal)) (x12 : (⟨S1024x1024, .f32⟩ : BufTy).Contents (Elt Ideal)) (b : Fin 8192) (n : Fin 1024) :
    val_main_v11 (F := Ideal) x3 x12 (ix2 b n) = proj x3 (flip x12) b n := by
  rw [val_main_v11_apply]
  unfold proj
  refine Finset.sum_congr rfl fun l _ => ?_
  have hl : lidx_main_v11 (ix2 b n) l = ix2 b l := funext fun a => match a with
    | ⟨0, _⟩ => rfl
    | ⟨1, _⟩ => rfl
  have hr : idx_main_v10 (ridx_main_v11 (ix2 b n) l) = ix2 n l := funext fun a => match a with
    | ⟨0, _⟩ => rfl
    | ⟨1, _⟩ => rfl
  rw [hl, val_main_v10_apply, hr]
  rfl

/-- Group 0's step over the whole batch, at (b, n). -/
theorem group0_apply (x0 x5 : (⟨S8192x1024, .f32⟩ : BufTy).Contents (Elt Ideal)) (b : Fin 8192) (n : Fin 1024) :
    val_main_v18 (F := Ideal) x0 x5 (ix2 b n) = spike (x5 (ix2 b n)) (x0 (ix2 b n)) := by
  rw [val_main_v18_apply, val_main_v17_apply, val_main_v15_apply, val_main_v16_apply, val_main_cst_0_apply,
    val_main_v14_apply, val_main_v13_apply, val_main_cst_apply, val_main_v12_apply]
  rfl

/-- Group 1's step, at (b, n): its current is the sum of three projections, added in the order the host adds them. -/
theorem group1_apply (x1 x2 x3 x6 : (⟨S8192x1024, .f32⟩ : BufTy).Contents (Elt Ideal)) (x9 x11 x13 : (⟨S1024x1024, .f32⟩ : BufTy).Contents (Elt Ideal)) (b : Fin 8192) (n : Fin 1024) :
    val_main_v25 (F := Ideal) x1 x2 x3 x6 x9 x11 x13 (ix2 b n)
      = spike (x6 (ix2 b n)) (proj x1 (flip x9) b n + proj x3 (flip x11) b n + proj x2 (flip x13) b n) := by
  rw [val_main_v25_apply, val_main_v24_apply, val_main_v22_apply, val_main_v23_apply, val_main_cst_2_apply,
    val_main_v21_apply, val_main_v20_apply, val_main_cst_1_apply, val_main_v19_apply, val_main_v7_apply, val_main_v4_apply,
    product1_apply, product3_apply, product6_apply]
  rfl

/-- Group 2's step, at (b, n). -/
theorem group2_apply (x2 x7 : (⟨S8192x1024, .f32⟩ : BufTy).Contents (Elt Ideal)) (x10 : (⟨S1024x1024, .f32⟩ : BufTy).Contents (Elt Ideal)) (b : Fin 8192) (n : Fin 1024) :
    val_main_v32 (F := Ideal) x2 x7 x10 (ix2 b n) = spike (x7 (ix2 b n)) (proj x2 (flip x10) b n) := by
  rw [val_main_v32_apply, val_main_v31_apply, val_main_v29_apply, val_main_v30_apply, val_main_cst_4_apply,
    val_main_v28_apply, val_main_v27_apply, val_main_cst_3_apply, val_main_v26_apply, product9_apply]
  rfl

/-- Group 3's step, at (b, n). -/
theorem group3_apply (x3 x8 : (⟨S8192x1024, .f32⟩ : BufTy).Contents (Elt Ideal)) (x12 : (⟨S1024x1024, .f32⟩ : BufTy).Contents (Elt Ideal)) (b : Fin 8192) (n : Fin 1024) :
    val_main_v39 (F := Ideal) x3 x8 x12 (ix2 b n) = spike (x8 (ix2 b n)) (proj x3 (flip x12) b n) := by
  rw [val_main_v39_apply, val_main_v38_apply, val_main_v36_apply, val_main_v37_apply, val_main_cst_6_apply,
    val_main_v35_apply, val_main_v34_apply, val_main_cst_5_apply, val_main_v33_apply, product11_apply]
  rfl

/-- A [8192, 1024] array laid as the one plane of [1, 8192, 1024] is read at (u, b, n) where the array is at (b, n). -/
theorem plane_index (u : Fin 1) (b : Fin 8192) (n : Fin 1024) : idx_main_v40 (ix3 u b n) = ix2 b n :=
  funext fun a => match a with
    | ⟨0, _⟩ => rfl
    | ⟨1, _⟩ => rfl

/-- The four planes the host joins, by group. -/
def planes (x0 x1 x2 x3 x5 x6 x7 x8 : (⟨S8192x1024, .f32⟩ : BufTy).Contents (Elt Ideal)) (x9 x10 x11 x12 x13 : (⟨S1024x1024, .f32⟩ : BufTy).Contents (Elt Ideal)) : Fin 4 → (S1x8192x1024.Idx → EReal)
  | ⟨0, _⟩ => val_main_v40 (F := Ideal) x0 x5
  | ⟨1, _⟩ => val_main_v41 (F := Ideal) x1 x2 x3 x6 x9 x11 x13
  | ⟨2, _⟩ => val_main_v42 (F := Ideal) x2 x7 x10
  | ⟨3, _⟩ => val_main_v43 (F := Ideal) x3 x8 x12
  | ⟨_ + 4, h⟩ => absurd h (by omega)

/-- The host's result is the layer of its arguments, the weights with their axes exchanged. -/
theorem result_eq (x0 x1 x2 x3 x5 x6 x7 x8 : (⟨S8192x1024, .f32⟩ : BufTy).Contents (Elt Ideal)) (x9 x10 x11 x12 x13 : (⟨S1024x1024, .f32⟩ : BufTy).Contents (Elt Ideal)) :
    val_main_v44 (F := Ideal) x0 x1 x2 x3 x5 x6 x7 x8 x9 x10 x11 x12 x13
      = layer x0 x1 x2 x3 x5 x6 x7 x8 (flip x9) (flip x10) (flip x11) (flip x12) (flip x13) := by
  funext y
  obtain ⟨g, b, n, rfl⟩ : ∃ (g : Fin 4) (b : Fin 8192) (n : Fin 1024), y = ix3 g b n := ⟨y 0, y 1, y 2, eq_ix3 y⟩
  rw [layer_apply]
  unfold val_main_v44
  refine (concatenate_ofFn_unit_apply (α := EReal) (t := S4x8192x1024) (s₁ := S1x8192x1024) 0
    (planes x0 x1 x2 x3 x5 x6 x7 x8 x9 x10 x11 x12 x13)
    concatenates_S1x8192x1024_S1x8192x1024_S1x8192x1024_S1x8192x1024_S4x8192x1024_d0 rfl rfl (ix3 g b n) g rfl
    (ix3 0 b n) (fun a ha => match a, ha with
      | ⟨0, _⟩, ha => absurd rfl ha
      | ⟨1, _⟩, _ => rfl
      | ⟨2, _⟩, _ => rfl)).trans ?_
  match g with
  | ⟨0, _⟩ =>
    show val_main_v40 (F := Ideal) x0 x5 (ix3 0 b n) = spike (x5 (ix2 b n)) (x0 (ix2 b n))
    rw [val_main_v40_apply, plane_index, group0_apply]
  | ⟨1, _⟩ =>
    show val_main_v41 (F := Ideal) x1 x2 x3 x6 x9 x11 x13 (ix3 0 b n)
      = spike (x6 (ix2 b n)) (proj x1 (flip x9) b n + proj x3 (flip x11) b n + proj x2 (flip x13) b n)
    rw [val_main_v41_apply, show idx_main_v41 (ix3 0 b n) = ix2 b n from plane_index 0 b n, group1_apply]
  | ⟨2, _⟩ =>
    show val_main_v42 (F := Ideal) x2 x7 x10 (ix3 0 b n) = spike (x7 (ix2 b n)) (proj x2 (flip x10) b n)
    rw [val_main_v42_apply, show idx_main_v42 (ix3 0 b n) = ix2 b n from plane_index 0 b n, group2_apply]
  | ⟨3, _⟩ =>
    show val_main_v43 (F := Ideal) x3 x8 x12 (ix3 0 b n) = spike (x8 (ix2 b n)) (proj x3 (flip x12) b n)
    rw [val_main_v43_apply, show idx_main_v43 (ix3 0 b n) = ix2 b n from plane_index 0 b n, group3_apply]

end Cert.ReferenceIdeal.RefValue

end
-- ==== Proof.lean ====
/-
  A layer of leaky integrate-and-fire neurons, as a pipelined kernel and as a plain host program, compute the same
  array on the extended reals.

  The layer has four groups of 1024 neurons over a batch of 8192 rows. Each neuron moves its potential v towards its
  input current I, v' = v + c · (I − v) with c the single-precision word nearest 1/20, and emits 1 if v' ≥ 1, else 0. Group 0's
  current is the external input; group 1's is the sum of three projections of the previous spikes through weight
  matrices (s · W1ᵀ + h2 · W3ᵀ + h1 · W5ᵀ, in that order of addition on both sides), group 2's is h1 · W2ᵀ and group 3's
  h2 · W4ᵀ. The result stacks the four groups' spikes as [4, 8192, 1024].

  Both programs transpose the five weight matrices on the host. The kernel then walks the batch in 64 blocks of 128
  rows, holding the transposed weights whole, and writes each block's four planes; the host program multiplies whole
  arrays and joins four planes. At the exact values a product from a zero accumulator and the host's product are the
  same finite sum Σ_l X(b, l) · W(n, l), the comparison and the literals are the same words on both sides, and the 0/1
  value of the comparison's bit does not depend on whether the bit is converted signed after widening or unsigned. No law
  of arithmetic is needed beyond that: the two sides apply the same operations in the same order to the same entries,
  so the precondition on the inputs is never opened.

  The three frames are the generated ones (the reference's is its run with the result dropped); the idealization
  rewrote nothing, so `preserves` is trivial; `algebraic` sets the kernel's run (the blocks assembled into the whole
  array) beside the reference's run (read one operation at a time), both at the one function `Cert.Spiking.layer`.
-/
import proofs.«167755_j36344013258758_1_alg».proof.Defs
import proofs.«167755_j36344013258758_1_alg».proof.Proof.Gen.Kernel
import proofs.«167755_j36344013258758_1_alg».proof.Proof.Gen.Kernel.Skeleton
import proofs.«167755_j36344013258758_1_alg».proof.Proof.Gen.Kernel.Launch
import proofs.«167755_j36344013258758_1_alg».proof.Proof.Gen.Kernel.Points
import proofs.«167755_j36344013258758_1_alg».proof.Proof.Gen.Kernel.Frame
import proofs.«167755_j36344013258758_1_alg».proof.Proof.Gen.KernelIdeal
import proofs.«167755_j36344013258758_1_alg».proof.Proof.Gen.KernelIdeal.Skeleton
import proofs.«167755_j36344013258758_1_alg».proof.Proof.Gen.KernelIdeal.Launch
import proofs.«167755_j36344013258758_1_alg».proof.Proof.Gen.KernelIdeal.Points
import proofs.«167755_j36344013258758_1_alg».proof.Proof.Gen.KernelIdeal.Frame
import proofs.«167755_j36344013258758_1_alg».proof.Proof.Gen.ReferenceIdeal
import proofs.«167755_j36344013258758_1_alg».proof.Proof.Gen.Pre_finite_inputs
import proofs.«167755_j36344013258758_1_alg».proof.Proof.Gen.KernelIdeal.Value
import proofs.«167755_j36344013258758_1_alg».proof.Proof.Gen.ReferenceIdeal.Run
import proofs.«167755_j36344013258758_1_alg».proof.Proof.Gen.ReferenceIdeal.Read
import proofs.«167755_j36344013258758_1_alg».proof.Proof.KernelValue
import proofs.«167755_j36344013258758_1_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The host program's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the fourteen arguments both programs end with the result array at the layer of those
    arguments (the weights with their axes exchanged): the kernel's blocks assembled, the host's operations read one by
    one. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, _, a5, a6, a7, a8, a9, a10, a11, a12, a13⟩ := hagree c
  rw [Cert.ReferenceIdeal.Read.val_main_v44_eq, Cert.ReferenceIdeal.RefValue.result_eq,
    a0, a1, a2, a3, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
